-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x64 : Shape := ⟨2, ![128, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S16384x128 .f32) (main_arg1 : FVec F S128x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S16384x128 : Shape := ⟨2, ![16384, 128]⟩
abbrev S128x64 : Shape := ⟨2, ![128, 64]⟩
abbrev S8192x256 : Shape := ⟨2, ![8192, 256]⟩
abbrev S_ : Shape := ⟨0, ![]⟩
abbrev S128x128 : Shape := ⟨2, ![128, 128]⟩
abbrev S256x128 : Shape := ⟨2, ![256, 128]⟩
abbrev S8192x128 : Shape := ⟨2, ![8192, 128]⟩
abbrev S16384x64 : Shape := ⟨2, ![16384, 64]⟩
abbrev S2048x256 : Shape := ⟨2, ![2048, 256]⟩
abbrev S2048x128 : Shape := ⟨2, ![2048, 128]⟩

abbrev nBuf : Space → Nat
  | .hbm => 11
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S8192x256, .f32⟩
  | .hbm, ⟨3, _⟩ => ⟨S128x64, .bf16⟩
  | .hbm, ⟨4, _⟩ => ⟨S_, .bf16⟩
  | .hbm, ⟨5, _⟩ => ⟨S128x64, .bf16⟩
  | .hbm, ⟨6, _⟩ => ⟨S128x128, .bf16⟩
  | .hbm, ⟨7, _⟩ => ⟨S128x128, .bf16⟩
  | .hbm, ⟨8, _⟩ => ⟨S256x128, .bf16⟩
  | .hbm, ⟨9, _⟩ => ⟨S8192x128, .f32⟩
  | .hbm, ⟨10, _⟩ => ⟨S16384x64, .f32⟩
  | .local _ .vmem, ⟨0, _⟩ => ⟨S2048x256, .f32⟩
  | .local _ .vmem, ⟨1, _⟩ => ⟨S2048x256, .f32⟩
  | .local _ .vmem, ⟨2, _⟩ => ⟨S256x128, .bf16⟩
  | .local _ .vmem, ⟨3, _⟩ => ⟨S2048x128, .f32⟩
  | .local _ .vmem, ⟨4, _⟩ => ⟨S2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x128_S8192x256 : S16384x128.ShapeCasts S8192x256
  bitsLt_bf16_f32 : FTy.bits .bf16 < FTy.bits .f32
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  shapeCasts_S8192x128_S16384x64 : S8192x128.ShapeCasts S16384x64
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_call0_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x64 : Shape := ⟨2, ![128, 64]⟩
abbrev S16384x64 : Shape := ⟨2, ![16384, 64]⟩

abbrev nBuf : Space → Nat
  | .hbm => 3
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S16384x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x128_S128x64_S16384x64_1_0_0_1_n_n_wf : DotDims.WF S16384x128 S128x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.PairedRows.lean ====
/-
  Two consecutive rows of a [16384, 128] array laid side by side form one row of a [8192, 256] array (both are the
  same numbers in row-major order). A [128, 64] matrix W placed twice on the diagonal of a [256, 128] matrix whose two
  other quarters are zero multiplies such a double row (x₀ | x₁) into (x₀·W | x₁·W): in the sum over the 256
  contracted positions one half meets W and the other half meets zeros, and a product with zero is zero on the
  extended reals whatever the other factor is. Read back in row-major order as [16384, 64], the result is the
  product of the original [16384, 128] array with W.
-/
import Idealize.ShloMosaic.PureOps.Ideal.Laws
import Idealize.ShloMosaic.Lib.ValueIdx
import Idealize.ShloMosaic.Lib.Pipeline.Value

noncomputable section

namespace Cert.PairedRows

open Idealize.ShloMosaic Idealize.ShloMosaic.ValueIdx

abbrev SX : Shape := ⟨2, ![16384, 128]⟩
abbrev SW : Shape := ⟨2, ![128, 64]⟩
abbrev SX2 : Shape := ⟨2, ![8192, 256]⟩
abbrev SH : Shape := ⟨2, ![128, 128]⟩
abbrev SW2 : Shape := ⟨2, ![256, 128]⟩
abbrev SO2 : Shape := ⟨2, ![8192, 128]⟩
abbrev SO : Shape := ⟨2, ![16384, 64]⟩

/-! ## Where an entry of the paired layout comes from -/

/-- Row `r` of the paired array holds rows `2r` and `2r + 1` of the original: position `c` of it is in the first of
    the two when `c < 128` and in the second otherwise. -/
def srcRow (r : Fin 8192) (c : Fin 256) : Fin 16384 := ⟨2 * r.val + c.val / 128, by have := r.isLt; have := c.isLt; omega⟩
/-- and sits at column `c mod 128` there. -/
def srcCol (c : Fin 256) : Fin 128 := ⟨c.val % 128, by omega⟩

/-- Row `p` of the original is in paired row `p / 2`, -/
def pairOf (p : Fin 16384) : Fin 8192 := ⟨p.val / 2, by have := p.isLt; omega⟩
/-- and column `q` of its result is at position `(p mod 2) · 64 + q` of the paired result's row. -/
def sideCol (p : Fin 16384) (q : Fin 64) : Fin 128 := ⟨p.val % 2 * 64 + q.val, by have := q.isLt; have := Nat.mod_lt p.val (by decide : 0 < 2); omega⟩

/-- The original array in the paired layout. -/
def pairRows {α : Type} (X : SX.Idx → α) : SX2.Idx → α := fun j => X (ix2 (srcRow (j 0) (j 1)) (srcCol (j 1)))

/-- A paired-layout result read in the original layout. -/
def unpairRows {α : Type} (Y : SO2.Idx → α) : SO.Idx → α := fun j => Y (ix2 (pairOf (j 0)) (sideCol (j 0) (j 1)))

/-- The row-major re-reading of [16384, 128] as [8192, 256] is the paired layout. -/
theorem shapeCast_eq_pairRows {α : Type} (X : SX.Idx → α) (h : SX.ShapeCasts SX2) : shapeCast SX2 X h = pairRows X := by
  funext j
  obtain ⟨r, c, rfl⟩ : ∃ (r : Fin 8192) (c : Fin 256), j = ix2 r c := ⟨j 0, j 1, eq_ix2 j⟩
  refine shapeCast_apply X h _ _ ?_
  rw [Shape.rowMajor_val_two, Shape.rowMajor_val_two]
  show (2 * r.val + c.val / 128) * 128 + c.val % 128 = r.val * 256 + c.val
  omega

/-- The row-major re-reading of [8192, 128] as [16384, 64] undoes the pairing. -/
theorem shapeCast_eq_unpairRows {α : Type} (Y : SO2.Idx → α) (h : SO2.ShapeCasts SO) : shapeCast SO Y h = unpairRows Y := by
  funext j
  obtain ⟨p, q, rfl⟩ : ∃ (p : Fin 16384) (q : Fin 64), j = ix2 p q := ⟨j 0, j 1, eq_ix2 j⟩
  refine shapeCast_apply Y h _ _ ?_
  rw [Shape.rowMajor_val_two, Shape.rowMajor_val_two]
  show p.val / 2 * 128 + (p.val % 2 * 64 + q.val) = p.val * 64 + q.val
  have := q.isLt
  omega

/-! ## The matrix placed twice on the diagonal -/

/-- `[[w, z], [z, w]]`: `w` beside `z`, over `z` beside `w`. -/
def doubled {α : Type} (w z : SW.Idx → α) (h1 : Shape.Concatenates [SW, SW] SH 1) (h0 : Shape.Concatenates [SH, SH] SW2 0) : SW2.Idx → α :=
  concatenate SW2 0 [⟨SH, concatenate SH 1 [⟨SW, w⟩, ⟨SW, z⟩] h1⟩, ⟨SH, concatenate SH 1 [⟨SW, z⟩, ⟨SW, w⟩] h1⟩] h0

section
variable {α : Type} (w z : SW.Idx → α) (h1 : Shape.Concatenates [SW, SW] SH 1) (h0 : Shape.Concatenates [SH, SH] SW2 0)

private theorem beside_left (a b : SW.Idx → α) (k : Fin 128) (q : Fin 64) :
    concatenate SH 1 [⟨SW, a⟩, ⟨SW, b⟩] h1 (ix2 k (Fin.castAdd 64 q)) = a (ix2 k q) :=
  concatenate_pair_apply_left (t := SH) (1 : Fin 2) a b h1 _ rfl (ix2 k q) (fun b => by
    match b with
    | ⟨0, _⟩ => rfl
    | ⟨1, _⟩ => rfl)

private theorem beside_right (a b : SW.Idx → α) (k : Fin 128) (q : Fin 64) :
    concatenate SH 1 [⟨SW, a⟩, ⟨SW, b⟩] h1 (ix2 k (Fin.natAdd 64 q)) = b (ix2 k q) :=
  concatenate_pair_apply_right (t := SH) (1 : Fin 2) a b h1 _ rfl rfl (ix2 k q) (fun b => by
    match b with
    | ⟨0, _⟩ => exact fun _ => rfl
    | ⟨1, _⟩ => exact fun hne => absurd rfl hne) (by show q.val + 64 = 64 + q.val; omega)

private theorem over_top (a b : SH.Idx → α) (k : Fin 128) (j : Fin 128) :
    concatenate SW2 0 [⟨SH, a⟩, ⟨SH, b⟩] h0 (ix2 (Fin.castAdd 128 k) j) = a (ix2 k j) :=
  concatenate_pair_apply_left (t := SW2) (0 : Fin 2) a b h0 _ rfl (ix2 k j) (fun b => by
    match b with
    | ⟨0, _⟩ => rfl
    | ⟨1, _⟩ => rfl)

private theorem over_bottom (a b : SH.Idx → α) (k : Fin 128) (j : Fin 128) :
    concatenate SW2 0 [⟨SH, a⟩, ⟨SH, b⟩] h0 (ix2 (Fin.natAdd 128 k) j) = b (ix2 k j) :=
  concatenate_pair_apply_right (t := SW2) (0 : Fin 2) a b h0 _ rfl rfl (ix2 k j) (fun b => by
    match b with
    | ⟨0, _⟩ => exact fun hne => absurd rfl hne
    | ⟨1, _⟩ => exact fun _ => rfl) (by show k.val + 128 = 128 + k.val; omega)

/-- The top left quarter is `w`, -/
theorem doubled_top_left (k : Fin 128) (q : Fin 64) : doubled w z h1 h0 (ix2 (Fin.castAdd 128 k) (Fin.castAdd 64 q)) = w (ix2 k q) :=
  (over_top h0 _ _ k _).trans (beside_left h1 w z k q)
/-- the top right quarter `z`, -/
theorem doubled_top_right (k : Fin 128) (q : Fin 64) : doubled w z h1 h0 (ix2 (Fin.castAdd 128 k) (Fin.natAdd 64 q)) = z (ix2 k q) :=
  (over_top h0 _ _ k _).trans (beside_right h1 w z k q)
/-- the bottom left quarter `z`, -/
theorem doubled_bottom_left (k : Fin 128) (q : Fin 64) : doubled w z h1 h0 (ix2 (Fin.natAdd 128 k) (Fin.castAdd 64 q)) = z (ix2 k q) :=
  (over_bottom h0 _ _ k _).trans (beside_left h1 z w k q)
/-- and the bottom right quarter `w` again. -/
theorem doubled_bottom_right (k : Fin 128) (q : Fin 64) : doubled w z h1 h0 (ix2 (Fin.natAdd 128 k) (Fin.natAdd 64 q)) = w (ix2 k q) :=
  (over_bottom h0 _ _ k _).trans (beside_right h1 z w k q)

end

/-! ## The product in the paired layout is the product -/

/-- The product of a [8192, 256] array with a [256, 128] array, entry by entry. -/
def prod2 (A : SX2.Idx → EReal) (B : SW2.Idx → EReal) : SO2.Idx → EReal := fun j => ∑ k : Fin 256, A (ix2 (j 0) k) * B (ix2 k (j 1))

/-- The product of a [16384, 128] array with a [128, 64] array, entry by entry. -/
def prod (X : SX.Idx → EReal) (W : SW.Idx → EReal) : SO.Idx → EReal := fun j => ∑ k : Fin 128, X (ix2 (j 0) k) * W (ix2 k (j 1))

variable (X : SX.Idx → EReal) (W z : SW.Idx → EReal) (h1 : Shape.Concatenates [SW, SW] SH 1) (h0 : Shape.Concatenates [SH, SH] SW2 0)

/-- In an even row `p = 2r` the first half of paired row `r` is row `p`. -/
private theorem even_first (p : Fin 16384) (hp : p.val % 2 = 0) (k : Fin 128) :
    pairRows X (ix2 (pairOf p) (Fin.castAdd 128 k)) = X (ix2 p k) := by
  show X (ix2 (srcRow (pairOf p) (Fin.castAdd 128 k)) (srcCol (Fin.castAdd 128 k))) = X (ix2 p k)
  have a : srcRow (pairOf p) (Fin.castAdd 128 k) = p := Fin.ext (by
    show 2 * (p.val / 2) + k.val / 128 = p.val
    have := k.isLt; omega)
  have b : srcCol (Fin.castAdd 128 k) = k := Fin.ext (by
    show k.val % 128 = k.val
    have := k.isLt; omega)
  rw [a, b]

/-- In an odd row `p = 2r + 1` the second half of paired row `r` is row `p`. -/
private theorem odd_second (p : Fin 16384) (hp : p.val % 2 = 1) (k : Fin 128) :
    pairRows X (ix2 (pairOf p) (Fin.natAdd 128 k)) = X (ix2 p k) := by
  show X (ix2 (srcRow (pairOf p) (Fin.natAdd 128 k)) (srcCol (Fin.natAdd 128 k))) = X (ix2 p k)
  have a : srcRow (pairOf p) (Fin.natAdd 128 k) = p := Fin.ext (by
    show 2 * (p.val / 2) + (128 + k.val) / 128 = p.val
    have := k.isLt; omega)
  have b : srcCol (Fin.natAdd 128 k) = k := Fin.ext (by
    show (128 + k.val) % 128 = k.val
    have := k.isLt; omega)
  rw [a, b]

/-- THE LAW: with zeros in the two off-diagonal quarters, entry `(p / 2, (p mod 2) · 64 + q)` of the paired product is
    entry `(p, q)` of the product. The 256 contracted positions split into two runs of 128; in an even row the first
    run is row `p` against `W` and the second is row `p + 1` against zeros, in an odd row the first is row `p - 1` against
    zeros and the second is row `p` against `W`. No finiteness is needed: `x · 0 = 0` for every extended real `x`. -/
theorem paired_product (hz : ∀ i, z i = 0) :
    unpairRows (prod2 (pairRows X) (doubled W z h1 h0)) = prod X W := by
  funext j
  obtain ⟨p, q, rfl⟩ : ∃ (p : Fin 16384) (q : Fin 64), j = ix2 p q := ⟨j 0, j 1, eq_ix2 j⟩
  show (∑ k : Fin (128 + 128), pairRows X (ix2 (pairOf p) k) * doubled W z h1 h0 (ix2 k (sideCol p q)))
      = ∑ k : Fin 128, X (ix2 p k) * W (ix2 k q)
  rw [Fin.sum_univ_add]
  rcases Nat.mod_two_eq_zero_or_one p.val with hp | hp
  · have hc : sideCol p q = Fin.castAdd 64 q := Fin.ext (by show p.val % 2 * 64 + q.val = q.val; omega)
    rw [hc]
    have e1 : ∀ k : Fin 128, pairRows X (ix2 (pairOf p) (Fin.castAdd 128 k)) * doubled W z h1 h0 (ix2 (Fin.castAdd 128 k) (Fin.castAdd 64 q))
        = X (ix2 p k) * W (ix2 k q) := fun k => by rw [even_first X p hp k, doubled_top_left]
    have e2 : ∀ k : Fin 128, pairRows X (ix2 (pairOf p) (Fin.natAdd 128 k)) * doubled W z h1 h0 (ix2 (Fin.natAdd 128 k) (Fin.castAdd 64 q))
        = 0 := fun k => by rw [doubled_bottom_left, hz, mul_zero]
    rw [Finset.sum_congr rfl (fun k _ => e1 k), Finset.sum_congr rfl (fun k _ => e2 k), Finset.sum_const_zero, add_zero]
  · have hc : sideCol p q = Fin.natAdd 64 q := Fin.ext (by show p.val % 2 * 64 + q.val = 64 + q.val; omega)
    rw [hc]
    have e1 : ∀ k : Fin 128, pairRows X (ix2 (pairOf p) (Fin.castAdd 128 k)) * doubled W z h1 h0 (ix2 (Fin.castAdd 128 k) (Fin.natAdd 64 q))
        = 0 := fun k => by rw [doubled_top_right, hz, mul_zero]
    have e2 : ∀ k : Fin 128, pairRows X (ix2 (pairOf p) (Fin.natAdd 128 k)) * doubled W z h1 h0 (ix2 (Fin.natAdd 128 k) (Fin.natAdd 64 q))
        = X (ix2 p k) * W (ix2 k q) := fun k => by rw [odd_second X p hp k, doubled_bottom_right]
    rw [Finset.sum_congr rfl (fun k _ => e1 k), Finset.sum_congr rfl (fun k _ => e2 k), Finset.sum_const_zero, zero_add]

end Cert.PairedRows

end
-- ==== Proof.KernelValue.lean ====
/-
  What the kernel program leaves in its result, on the extended reals.

  Before the region the host lays the [16384, 128] input out as [8192, 256] (two consecutive rows side by side) and
  builds the [256, 128] matrix that carries W twice on its diagonal and zeros elsewhere. The region has four grid
  points; point t multiplies rows 2048·t … 2048·t + 2047 of the paired input by the whole doubled matrix, into a zero
  accumulator, and writes the 2048 result rows back: so block t of the region's output is block t of ONE whole-array
  function, the paired product, and the four blocks tile the [8192, 128] output. After the region the host reads that
  output as [16384, 64]. By the law of the paired layout the result is the plain product x · W.
-/
import proofs.«171021_g48696339202344_cont_8to1c4_755_11_alg».proof.Proof.Gen.KernelIdeal.Frame
import proofs.«171021_g48696339202344_cont_8to1c4_755_11_alg».proof.Proof.LibPlainDot
import proofs.«171021_g48696339202344_cont_8to1c4_755_11_alg».proof.Proof.PairedRows
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.PairedRows

variable (m : (ℓ : Loc nD τ sig) → Buf (Elt Ideal) ℓ) (ρ : Dev nD → PrngReg)

/-! ## The arrays the region finds -/

/-- The [128, 64] array of zeros the host broadcasts from the zero constant. -/
abbrev zeros : FVec Ideal S128x64 .bf16 := broadcastInDim S128x64 ![] bcast_S_S128x64 (constant S_ .bf16 0x0000#16)

theorem zeros_apply (i : S128x64.Idx) : zeros i = 0 := by
  show Ideal.ofBits .bf16 0x0000#16 = 0
  exact Ideal.ofBits_zero_bf16

/-- The first operand as the region finds it: the input in the paired layout. -/
theorem entry_lhs (c : Dev nD) :
    (V m c main_call0_v0 : S8192x256.Idx → EReal) = pairRows (m ((c : Thread nD τ).loc main_arg0)) := by
  rw [← shapeCast_eq_pairRows _ shapeCasts_S16384x128_S8192x256]
  show StableHlo.after hostOps0 (fun b => m (c, b)) (Proc.devRef .tc main_call0_v0) = _
  after_results
  rfl

/-- The second operand as the region finds it: W twice on the diagonal, zeros in the other two quarters (the
    change of float format is the identity on the extended reals). -/
theorem entry_rhs (c : Dev nD) :
    (V m c main_call0_v3 : S256x128.Idx → EReal)
      = doubled (m ((c : Thread nD τ).loc main_arg1)) zeros concatenates_S128x64_S128x64_S128x128_d1 concatenates_S128x128_S128x128_S256x128_d0 := by
  show StableHlo.after hostOps0 (fun b => m (c, b)) (Proc.devRef .tc main_call0_v3) = _
  after_results
  rfl

/-! ## One grid point -/

theorem isPlain : PlainDot.IsPlain (R := 2048) (K := 256) (C := 128) dot_S2048x256_S256x128_S2048x128_1_0_0_1_n_n :=
  ⟨rfl, rfl, rfl, rfl, rfl, rfl⟩

/-- The body's stored value at (p, q): row p of its first block against column q of its second. -/
theorem pay_at (x0 : FVec Ideal S2048x256 .f32) (x1 : FVec Ideal S256x128 .bf16) (p : Fin 2048) (q : Fin 128) :
    k0_pay1 x0 x1 (ix2 p q) = ∑ k : Fin 256, x0 (ix2 p k) * x1 (ix2 k q) := by
  unfold k0_pay1
  rw [shapeCast_self, shapeCast_self]
  exact PlainDot.matmul_zero_apply isPlain none _ _ p q

/-- A block of 2048 rows of the product: if the first block holds rows `b · 2048 …` of `A` and the second block is all
    of `B`, the body's stored value at `j` is the product of `A` and `B` at the entry `i` that `j` is in the whole
    array. -/
theorem blk_eq (A : S8192x256.Idx → EReal) (B : S256x128.Idx → EReal) (x0 : FVec Ideal S2048x256 .f32) (x1 : FVec Ideal S256x128 .bf16)
    (b : ℕ) (hb : b ≤ 3)
    (h0 : ∀ (p : Fin 2048) (k : Fin 256), x0 (ix2 p k) = A (ix2 (⟨b * 2048 + p.val, by have := p.isLt; omega⟩ : Fin 8192) k))
    (h1 : ∀ (k : Fin 256) (q : Fin 128), x1 (ix2 k q) = B (ix2 k q))
    (j : S2048x128.Idx) (i : S8192x128.Idx) (hi0 : (i 0).val = b * 2048 + (j 0).val) (hi1 : (i 1).val = (j 1).val) :
    k0_pay1 (F := Ideal) x0 x1 j = prod2 A B i := by
  obtain ⟨p, q, rfl⟩ : ∃ (p : Fin 2048) (q : Fin 128), j = ix2 p q := ⟨j 0, j 1, eq_ix2 j⟩
  have hlt : b * 2048 + p.val < 8192 := by have := p.isLt; omega
  obtain ⟨r, s, rfl⟩ : ∃ (r : Fin 8192) (s : Fin 128), i = ix2 r s := ⟨i 0, i 1, eq_ix2 i⟩
  have hr : r = ⟨b * 2048 + p.val, hlt⟩ := Fin.ext hi0
  have hs : s = q := Fin.ext hi1
  rw [hr, hs, pay_at]
  show (∑ k : Fin 256, x0 (ix2 p k) * x1 (ix2 k q)) = ∑ k : Fin 256, A (ix2 ⟨b * 2048 + p.val, hlt⟩ k) * B (ix2 k q)
  exact Finset.sum_congr rfl fun k _ => by rw [h0, h1]

theorem hz : (![0, 0] : Fin 2 → Nat) = fun _ => 0 := funext fun a => by fin_cases a <;> rfl

/-- The printed index maps over the four points: the first operand's block moves with the output's along the rows
    and is the whole width; the second operand's block is the whole matrix at every point. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every one of the four row blocks of the output is some point's. -/
theorem idx_onto : ∀ (b : Fin 4), ∃ t : Fin cfg0.N, win0_2.index t = ![b.val, 0] :=
  (by decide +kernel : ∀ (b : Fin 4), ∃ t : Fin grid0.N, win0_2.index t = ![b.val, 0])

/-- The region's output as one function of the arrays the region finds: their product. -/
abbrev regionOut (c : Dev nD) : S8192x128.Idx → EReal := prod2 (V m c main_call0_v0) (V m c main_call0_v3)

/-- WHAT POINT t WRITES BACK is block t of the product. -/
theorem flushed_eq (c : Dev nD) (t : Fin cfg0.N) :
    (dats m 0 c).flushed 2 t = ((cfg0.win 2).blk t).view.read (Elt Ideal) (regionOut m c) := by
  show (cfg0.win 2).cut (grid0.coords t) ((dats m 0 c).after 2 t) = _
  rw [after0_2]
  unfold out0_2
  rw [View.canon_unit_zero hz]
  simp only [View.ld_unit_zero (S := S2048x256) hz, View.ld_unit_zero (S := S256x128) hz]
  obtain ⟨e0, e1, e2, e3, e4, e5⟩ := idx_facts t
  funext j
  show k0_pay1 (iblk m c 0 t) (iblk m c 1 t) j = regionOut m c (((cfg0.win 2).blk t).view.emb j)
  refine blk_eq (V m c main_call0_v0) (V m c main_call0_v3) (iblk m c 0 t) (iblk m c 1 t) (win0_2.index t (0 : Fin 2)) e5 ?_ ?_ j
    (((cfg0.win 2).blk t).view.emb j) ?_ ?_
  · intro p k
    show V m c main_call0_v0 (((cfg0.win 0).blk t).view.emb (ix2 p k)) = _
    refine congrArg (V m c main_call0_v0) (funext fun a => Fin.ext ?_)
    match a with
    | ⟨0, _⟩ => show win0_0.index t (0 : Fin 2) * 2048 + 1 * p.val = win0_2.index t (0 : Fin 2) * 2048 + p.val; omega
    | ⟨1, _⟩ => show win0_0.index t (1 : Fin 2) * 256 + 1 * k.val = k.val; omega
  · intro k q
    show V m c main_call0_v3 (((cfg0.win 1).blk t).view.emb (ix2 k q)) = _
    refine congrArg (V m c main_call0_v3) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show win0_2.index t (0 : Fin 2) * 2048 + 1 * (j 0).val = win0_2.index t (0 : Fin 2) * 2048 + (j 0).val; omega
  · show win0_2.index t (1 : Fin 2) * 128 + 1 * (j 1).val = (j 1).val; omega

/-- An index of the output is in point t's block iff each coordinate is in the block's range on its axis. -/
theorem mem_blk (t : Fin cfg0.N) (i : S8192x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_call0_v4).slice (win0_2.rect t)).set ↔ _
  rw [View.set_slice_whole, Rect.mem_set_unit]
  exact Iff.rfl

/-- The four blocks tile the output: row r is in the block of point r / 2048. -/
theorem cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- THE REGION'S OUTPUT after the run is the product of the two arrays the region found. -/
theorem regionOut_final (c : Dev nD) : (dats m 0 c).arrAt 2 cfg0.N = regionOut m c :=
  (dats m 0 c).arrAt_eq_of_cover 2 (regionOut m c) (fun t _ => flushed_eq m c t) cover

/-! ## The program's result -/

/-- The result buffer after the host's last line: the region's output read as [16384, 64], which by the law of the
    paired layout is x · W. -/
theorem result_eq (c : Dev nD) :
    (Pipeline.afterTail₀ cfgs (dats m) 0 (V0 m) [hostOps1] c main_v0 : S16384x64.Idx → EReal)
      = prod (m ((c : Thread nD τ).loc main_arg0)) (m ((c : Thread nD τ).loc main_arg1)) := by
  rw [← paired_product (m ((c : Thread nD τ).loc main_arg0)) (m ((c : Thread nD τ).loc main_arg1)) zeros
    concatenates_S128x64_S128x64_S128x128_d1 concatenates_S128x128_S128x128_S256x128_d0 zeros_apply,
    ← entry_lhs m c, ← entry_rhs m c, ← shapeCast_eq_unpairRows _ shapeCasts_S8192x128_S16384x64]
  show _ = shapeCast S16384x64 (regionOut m c) shapeCasts_S8192x128_S16384x64
  rw [← regionOut_final m c, ← Pipeline.withArrays_arr spec0 launch0.win.arr_inj c (V0 m c) (fun w => (dats m 0 c).arrAt w cfg0.N) 2]
  unfold Pipeline.afterTail₀
  show StableHlo.after hostOps1 _ (Proc.devRef .tc main_v0) = _
  after_results
  rfl

/-- The run, read: the result is x · W and the arguments are as launched. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.ReferenceValue.lean ====
/-
  The reference is one matrix product on the host: its result at (p, q) is the sum over k of x(p, k) · W(k, q) on the
  extended reals.
-/
import proofs.«171021_g48696339202344_cont_8to1c4_755_11_alg».proof.Proof.Gen.ReferenceIdeal.Run
import proofs.«171021_g48696339202344_cont_8to1c4_755_11_alg».proof.Proof.LibPlainDot
import proofs.«171021_g48696339202344_cont_8to1c4_755_11_alg».proof.Proof.PairedRows

noncomputable section

namespace Cert.ReferenceIdeal.RefValue

open Idealize.ShloMosaic Idealize.ShloMosaic.ValueIdx Cert.ReferenceIdeal

variable [Cert.ReferenceIdeal.Facts]

/-- The reference's dimension numbers contract the left operand's columns with the right operand's rows. -/
theorem isPlain : PlainDot.IsPlain (R := 16384) (K := 128) (C := 64) dot_S16384x128_S128x64_S16384x64_1_0_0_1_n_n :=
  ⟨rfl, rfl, rfl, rfl, rfl, rfl⟩

/-- The host's product is the plain sum, entry by entry. -/
theorem result_eq (X : FVec Ideal S16384x128 .f32) (W : FVec Ideal S128x64 .f32) :
    Host.dotGeneral dot_S16384x128_S128x64_S16384x64_1_0_0_1_n_n none X W = Cert.PairedRows.prod X W := by
  funext j
  obtain ⟨p, q, rfl⟩ : ∃ (p : Fin 16384) (q : Fin 64), j = ix2 p q := ⟨j 0, j 1, eq_ix2 j⟩
  exact PlainDot.dotGeneral_apply isPlain none .single X W p q

end Cert.ReferenceIdeal.RefValue

end
-- ==== Proof.lean ====
/-
  A [16384, 128] · [128, 64] matrix product computed in a paired layout against the plain product.

  The kernel reads the input as [8192, 256] — two consecutive rows side by side —, multiplies it by the [256, 128]
  matrix [[W, 0], [0, W]] in four row blocks of 2048, each into a zero accumulator, and reads the [8192, 128] result
  back as [16384, 64]. On the extended reals the change of float format is the identity and a product with zero is
  zero, so of the 256 contracted positions only the 128 that meet W survive: entry (p, q) of the result is the sum
  over k of x(p, k) · W(k, q), which is what the reference's one host product computes. The law needs no finiteness.

  Proof/PairedRows.lean has the layout and the law; Proof/LibPlainDot.lean a plain matrix product read at an entry;
  Proof/KernelValue.lean the kernel's result (the blocks of the region's output, the tiling, the host lines around
  the region); Proof/ReferenceValue.lean the reference's. The rewriting pass changed nothing in the kernel, so there
  is nothing to preserve.
-/
import proofs.«171021_g48696339202344_cont_8to1c4_755_11_alg».proof.Defs
import proofs.«171021_g48696339202344_cont_8to1c4_755_11_alg».proof.Proof.Gen.Kernel
import proofs.«171021_g48696339202344_cont_8to1c4_755_11_alg».proof.Proof.Gen.Kernel.Skeleton
import proofs.«171021_g48696339202344_cont_8to1c4_755_11_alg».proof.Proof.Gen.Kernel.Launch
import proofs.«171021_g48696339202344_cont_8to1c4_755_11_alg».proof.Proof.Gen.Kernel.Points
import proofs.«171021_g48696339202344_cont_8to1c4_755_11_alg».proof.Proof.Gen.Kernel.Frame
import proofs.«171021_g48696339202344_cont_8to1c4_755_11_alg».proof.Proof.Gen.KernelIdeal
import proofs.«171021_g48696339202344_cont_8to1c4_755_11_alg».proof.Proof.Gen.KernelIdeal.Skeleton
import proofs.«171021_g48696339202344_cont_8to1c4_755_11_alg».proof.Proof.Gen.KernelIdeal.Launch
import proofs.«171021_g48696339202344_cont_8to1c4_755_11_alg».proof.Proof.Gen.KernelIdeal.Points
import proofs.«171021_g48696339202344_cont_8to1c4_755_11_alg».proof.Proof.Gen.KernelIdeal.Frame
import proofs.«171021_g48696339202344_cont_8to1c4_755_11_alg».proof.Proof.Gen.ReferenceIdeal
import proofs.«171021_g48696339202344_cont_8to1c4_755_11_alg».proof.Proof.Gen.ReferenceIdeal.Run
import proofs.«171021_g48696339202344_cont_8to1c4_755_11_alg».proof.Proof.Gen.Pre_finite_inputs
import proofs.«171021_g48696339202344_cont_8to1c4_755_11_alg».proof.Proof.KernelValue
import proofs.«171021_g48696339202344_cont_8to1c4_755_11_alg».proof.Proof.ReferenceValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is one host operation: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the product x · W in their result: the kernel by the law of the paired layout, the
    reference by its one host product read entry by entry. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
